-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000 : Shape := ⟨1, ![1000]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000 : S_.BroadcastsInDim S1000 (![] : Fin 0 → Fin S1000.rank)
  reducesTo_S1000_S_d0 : S1000.ReducesTo [0] S_

variable [Facts]

def fn_part1 {F : FTy → Type} [FloatOps F] (main_arg3 : IVec S1000 32) (main_v10 : IVec S_ 1) (main_v15 : IVec S1000 1) (main_c_5 : IVec S_ 1) : IVec S_ 1 :=
  let main_v16 : IVec S_ 1 := (fun x v => Host.reduce IntOp.andi x v reducesTo_S1000_S_d0 h_S_) main_v15 main_c_5
  let main_v17 : IVec S_ 1 := andi main_v10 main_v16
  let main_c_6 : IVec S_ 32 := constantI S_ 32 4294950912#32
  let main_v18 : IVec S1000 32 := broadcastInDim S1000 ![] bcast_S_S1000 main_c_6
  let main_v19 : IVec S1000 1 := cmpi .sge main_arg3 main_v18
  let main_c_7 : IVec S_ 32 := constantI S_ 32 16384#32
  let main_v20 : IVec S1000 32 := broadcastInDim S1000 ![] bcast_S_S1000 main_c_7
  let main_v21 : IVec S1000 1 := cmpi .slt main_arg3 main_v20
  let main_v22 : IVec S1000 1 := andi main_v19 main_v21
  let main_c_8 : IVec S_ 1 := constantI S_ 1 1#1
  let main_v23 : IVec S_ 1 := (fun x v => Host.reduce IntOp.andi x v reducesTo_S1000_S_d0 h_S_) main_v22 main_c_8
  let main_v24 : IVec S_ 1 := andi main_v17 main_v23
  main_v24

def fn {F : FTy → Type} [FloatOps F] (main_arg0 : FVec F S16384x512 .f32) (main_arg1 : IVec S1000 32) (main_arg2 : IVec S1000 32) (main_arg3 : IVec S1000 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_c_0 : IVec S_ 32 := constantI S_ 32 4294950912#32
  let main_v4 : IVec S1000 32 := broadcastInDim S1000 ![] bcast_S_S1000 main_c_0
  let main_v5 : IVec S1000 1 := cmpi .sge main_arg1 main_v4
  let main_c_1 : IVec S_ 32 := constantI S_ 32 16384#32
  let main_v6 : IVec S1000 32 := broadcastInDim S1000 ![] bcast_S_S1000 main_c_1
  let main_v7 : IVec S1000 1 := cmpi .slt main_arg1 main_v6
  let main_v8 : IVec S1000 1 := andi main_v5 main_v7
  let main_c_2 : IVec S_ 1 := constantI S_ 1 1#1
  let main_v9 : IVec S_ 1 := (fun x v => Host.reduce IntOp.andi x v reducesTo_S1000_S_d0 h_S_) main_v8 main_c_2
  let main_v10 : IVec S_ 1 := andi main_v3 main_v9
  let main_c_3 : IVec S_ 32 := constantI S_ 32 4294950912#32
  let main_v11 : IVec S1000 32 := broadcastInDim S1000 ![] bcast_S_S1000 main_c_3
  let main_v12 : IVec S1000 1 := cmpi .sge main_arg2 main_v11
  let main_c_4 : IVec S_ 32 := constantI S_ 32 16384#32
  let main_v13 : IVec S1000 32 := broadcastInDim S1000 ![] bcast_S_S1000 main_c_4
  let main_v14 : IVec S1000 1 := cmpi .slt main_arg2 main_v13
  let main_v15 : IVec S1000 1 := andi main_v12 main_v14
  let main_c_5 : IVec S_ 1 := constantI S_ 1 1#1
  fn_part1 (F := F) main_arg3 main_v10 main_v15 main_c_5
-- ==== Kernel.lean ====
abbrev S16384x512 : Shape := ⟨2, ![16384, 512]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1000x512 : Shape := ⟨2, ![1000, 512]⟩

abbrev nBuf : Space → Nat
  | .hbm => 75
  | .vmem => 4
  | .smem => 0
  | _ => 0

abbrev bufTy : (tb : Table) → Fin (tcTables nBuf tb) → BufTy
  | .hbm, ⟨0, _⟩ => ⟨S16384x512, .f32⟩
  | .hbm, ⟨1, _⟩ => ⟨S1000, .i32⟩
  | .hbm, ⟨2, _⟩ => ⟨S1000, .i32⟩
  | .hbm, ⟨3, _⟩ => ⟨S1000, .i32⟩
  | .hbm, ⟨4, _⟩ => ⟨S_, .i32⟩
  | .hbm, ⟨5, _⟩ => ⟨S1000, .i32⟩
  | .hbm, ⟨6, _⟩ => ⟨S1000, .i1⟩
  | .hbm, ⟨7, _⟩ => ⟨S_, .i32⟩
  | .hbm, ⟨8, _⟩ => ⟨S1000, .i32⟩
  | .hbm, ⟨9, _⟩ => ⟨S1000, .i32⟩
  | .hbm, ⟨10, _⟩ => ⟨S1000, .i32⟩
  | .hbm, ⟨11, _⟩ => ⟨S1000x1, .i32⟩
  | .hbm, ⟨12, _⟩ => ⟨S1, .i32⟩
  | .hbm, ⟨13, _⟩ => ⟨S_, .i32⟩
  | .hbm, ⟨14, _⟩ => ⟨S1000x1, .i32⟩
  | .hbm, ⟨15, _⟩ => ⟨S1000x1, .i1⟩
  | .hbm, ⟨16, _⟩ => ⟨S1x1, .i32⟩
  | .hbm, ⟨17, _⟩ => ⟨S1000x1, .i32⟩
  | .hbm, ⟨18, _⟩ => ⟨S1000x1, .i1⟩
  | .hbm, ⟨19, _⟩ => ⟨S1000x1, .i1⟩
  | .hbm, ⟨20, _⟩ => ⟨S_, .i1⟩
  | .hbm, ⟨21, _⟩ => ⟨S1000, .i1⟩
  | .hbm, ⟨22, _⟩ => ⟨S1000x512, .f32⟩
  | .hbm, ⟨23, _⟩ => ⟨S1000x512, .i1⟩
  | .hbm, ⟨24, _⟩ => ⟨S_, .f32⟩
  | .hbm, ⟨25, _⟩ => ⟨S1000x512, .f32⟩
  | .hbm, ⟨26, _⟩ => ⟨S1000x512, .f32⟩
  | .hbm, ⟨27, _⟩ => ⟨S_, .i32⟩
  | .hbm, ⟨28, _⟩ => ⟨S1000, .i32⟩
  | .hbm, ⟨29, _⟩ => ⟨S1000, .i1⟩
  | .hbm, ⟨30, _⟩ => ⟨S_, .i32⟩
  | .hbm, ⟨31, _⟩ => ⟨S1000, .i32⟩
  | .hbm, ⟨32, _⟩ => ⟨S1000, .i32⟩
  | .hbm, ⟨33, _⟩ => ⟨S1000, .i32⟩
  | .hbm, ⟨34, _⟩ => ⟨S1000x1, .i32⟩
  | .hbm, ⟨35, _⟩ => ⟨S1, .i32⟩
  | .hbm, ⟨36, _⟩ => ⟨S_, .i32⟩
  | .hbm, ⟨37, _⟩ => ⟨S1000x1, .i32⟩
  | .hbm, ⟨38, _⟩ => ⟨S1000x1, .i1⟩
  | .hbm, ⟨39, _⟩ => ⟨S1x1, .i32⟩
  | .hbm, ⟨40, _⟩ => ⟨S1000x1, .i32⟩
  | .hbm, ⟨41, _⟩ => ⟨S1000x1, .i1⟩
  | .hbm, ⟨42, _⟩ => ⟨S1000x1, .i1⟩
  | .hbm, ⟨43, _⟩ => ⟨S_, .i1⟩
  | .hbm, ⟨44, _⟩ => ⟨S1000, .i1⟩
  | .hbm, ⟨45, _⟩ => ⟨S1000x512, .f32⟩
  | .hbm, ⟨46, _⟩ => ⟨S1000x512, .i1⟩
  | .hbm, ⟨47, _⟩ => ⟨S_, .f32⟩
  | .hbm, ⟨48, _⟩ => ⟨S1000x512, .f32⟩
  | .hbm, ⟨49, _⟩ => ⟨S1000x512, .f32⟩
  | .hbm, ⟨50, _⟩ => ⟨S_, .i32⟩
  | .hbm, ⟨51, _⟩ => ⟨S1000, .i32⟩
  | .hbm, ⟨52, _⟩ => ⟨S1000, .i1⟩
  | .hbm, ⟨53, _⟩ => ⟨S_, .i32⟩
  | .hbm, ⟨54, _⟩ => ⟨S1000, .i32⟩
  | .hbm, ⟨55, _⟩ => ⟨S1000, .i32⟩
  | .hbm, ⟨56, _⟩ => ⟨S1000, .i32⟩
  | .hbm, ⟨57, _⟩ => ⟨S1000x1, .i32⟩
  | .hbm, ⟨58, _⟩ => ⟨S1, .i32⟩
  | .hbm, ⟨59, _⟩ => ⟨S_, .i32⟩
  | .hbm, ⟨60, _⟩ => ⟨S1000x1, .i32⟩
  | .hbm, ⟨61, _⟩ => ⟨S1000x1, .i1⟩
  | .hbm, ⟨62, _⟩ => ⟨S1x1, .i32⟩
  | .hbm, ⟨63, _⟩ => ⟨S1000x1, .i32⟩
  | .hbm, ⟨64, _⟩ => ⟨S1000x1, .i1⟩
  | .hbm, ⟨65, _⟩ => ⟨S1000x1, .i1⟩
  | .hbm, ⟨66, _⟩ => ⟨S_, .i1⟩
  | .hbm, ⟨67, _⟩ => ⟨S1000, .i1⟩
  | .hbm, ⟨68, _⟩ => ⟨S1000x512, .f32⟩
  | .hbm, ⟨69, _⟩ => ⟨S1000x512, .i1⟩
  | .hbm, ⟨70, _⟩ => ⟨S_, .f32⟩
  | .hbm, ⟨71, _⟩ => ⟨S1000x512, .f32⟩
  | .hbm, ⟨72, _⟩ => ⟨S1000x512, .f32⟩
  | .hbm, ⟨73, _⟩ => ⟨S1x1, .f32⟩
  | .hbm, ⟨74, _⟩ => ⟨S_, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_c_0 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c_1 : Ref sig .tc := ⟨.hbm, 12, rfl⟩
abbrev main_call0_call0_c_2 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_call0_c_3 : Ref sig .tc := ⟨.hbm, 20, rfl⟩
abbrev main_call0_call0_v12 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst : Ref sig .tc := ⟨.hbm, 24, rfl⟩
abbrev main_call0_call0_v15 : Ref sig .tc := ⟨.hbm, 25, rfl⟩
abbrev main_call0_v0 : Ref sig .tc := ⟨.hbm, 26, rfl⟩
abbrev main_call0_call1_c : Ref sig .tc := ⟨.hbm, 27, rfl⟩
abbrev main_call0_call1_v0 : Ref sig .tc := ⟨.hbm, 28, rfl⟩
abbrev main_call0_call1_v1 : Ref sig .tc := ⟨.hbm, 29, rfl⟩
abbrev main_call0_call1_c_0 : Ref sig .tc := ⟨.hbm, 30, rfl⟩
abbrev main_call0_call1_v2 : Ref sig .tc := ⟨.hbm, 31, rfl⟩
abbrev main_call0_call1_v3 : Ref sig .tc := ⟨.hbm, 32, rfl⟩
abbrev main_call0_call1_v4 : Ref sig .tc := ⟨.hbm, 33, rfl⟩
abbrev main_call0_call1_v5 : Ref sig .tc := ⟨.hbm, 34, rfl⟩
abbrev main_call0_call1_c_1 : Ref sig .tc := ⟨.hbm, 35, rfl⟩
abbrev main_call0_call1_c_2 : Ref sig .tc := ⟨.hbm, 36, rfl⟩
abbrev main_call0_call1_v6 : Ref sig .tc := ⟨.hbm, 37, rfl⟩
abbrev main_call0_call1_v7 : Ref sig .tc := ⟨.hbm, 38, rfl⟩
abbrev main_call0_call1_v8 : Ref sig .tc := ⟨.hbm, 39, rfl⟩
abbrev main_call0_call1_v9 : Ref sig .tc := ⟨.hbm, 40, rfl⟩
abbrev main_call0_call1_v10 : Ref sig .tc := ⟨.hbm, 41, rfl⟩
abbrev main_call0_call1_v11 : Ref sig .tc := ⟨.hbm, 42, rfl⟩
abbrev main_call0_call1_c_3 : Ref sig .tc := ⟨.hbm, 43, rfl⟩
abbrev main_call0_call1_v12 : Ref sig .tc := ⟨.hbm, 44, rfl⟩
abbrev main_call0_call1_v13 : Ref sig .tc := ⟨.hbm, 45, rfl⟩
abbrev main_call0_call1_v14 : Ref sig .tc := ⟨.hbm, 46, rfl⟩
abbrev main_call0_call1_cst : Ref sig .tc := ⟨.hbm, 47, rfl⟩
abbrev main_call0_call1_v15 : Ref sig .tc := ⟨.hbm, 48, rfl⟩
abbrev main_call0_v1 : Ref sig .tc := ⟨.hbm, 49, rfl⟩
abbrev main_call0_call2_c : Ref sig .tc := ⟨.hbm, 50, rfl⟩
abbrev main_call0_call2_v0 : Ref sig .tc := ⟨.hbm, 51, rfl⟩
abbrev main_call0_call2_v1 : Ref sig .tc := ⟨.hbm, 52, rfl⟩
abbrev main_call0_call2_c_0 : Ref sig .tc := ⟨.hbm, 53, rfl⟩
abbrev main_call0_call2_v2 : Ref sig .tc := ⟨.hbm, 54, rfl⟩
abbrev main_call0_call2_v3 : Ref sig .tc := ⟨.hbm, 55, rfl⟩
abbrev main_call0_call2_v4 : Ref sig .tc := ⟨.hbm, 56, rfl⟩
abbrev main_call0_call2_v5 : Ref sig .tc := ⟨.hbm, 57, rfl⟩
abbrev main_call0_call2_c_1 : Ref sig .tc := ⟨.hbm, 58, rfl⟩
abbrev main_call0_call2_c_2 : Ref sig .tc := ⟨.hbm, 59, rfl⟩
abbrev main_call0_call2_v6 : Ref sig .tc := ⟨.hbm, 60, rfl⟩
abbrev main_call0_call2_v7 : Ref sig .tc := ⟨.hbm, 61, rfl⟩
abbrev main_call0_call2_v8 : Ref sig .tc := ⟨.hbm, 62, rfl⟩
abbrev main_call0_call2_v9 : Ref sig .tc := ⟨.hbm, 63, rfl⟩
abbrev main_call0_call2_v10 : Ref sig .tc := ⟨.hbm, 64, rfl⟩
abbrev main_call0_call2_v11 : Ref sig .tc := ⟨.hbm, 65, rfl⟩
abbrev main_call0_call2_c_3 : Ref sig .tc := ⟨.hbm, 66, rfl⟩
abbrev main_call0_call2_v12 : Ref sig .tc := ⟨.hbm, 67, rfl⟩
abbrev main_call0_call2_v13 : Ref sig .tc := ⟨.hbm, 68, rfl⟩
abbrev main_call0_call2_v14 : Ref sig .tc := ⟨.hbm, 69, rfl⟩
abbrev main_call0_call2_cst : Ref sig .tc := ⟨.hbm, 70, rfl⟩
abbrev main_call0_call2_v15 : Ref sig .tc := ⟨.hbm, 71, rfl⟩
abbrev main_call0_v2 : Ref sig .tc := ⟨.hbm, 72, rfl⟩
abbrev main_call0_v3 : Ref sig .tc := ⟨.hbm, 73, rfl⟩
abbrev main_v0 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x512_0 : S1000.BroadcastsInDim S1000x512 (![0] : Fin 1 → Fin S1000x512.rank)
  bcast_S_S1000x512 : S_.BroadcastsInDim S1000x512 (![] : Fin 0 → Fin S1000x512.rank)
  shapeCasts_S1x1_S_ : S1x1.ShapeCasts S_
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  reduces_S1000x512_S1000 : S1000x512.Reduces [1] S1000
  shapeCasts_S1000_S1000x1 : S1000.ShapeCasts S1000x1
  broadcasts_S1000x1_S1000x512 : S1000x1.Broadcasts S1000x512
  reduces_S1000x1_S1 : S1000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  gather_S16384x512_S1000x1_S1000x512_1_0_n_n_0_1_1512_wf : GatherDims.WF S16384x512 S1000x1 S1000x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S1000x512.size a
  hwx0_0 : ∀ i : grid0.Coords, EltTy.bits .f32 = 32 ∨ (Rect.block (s := S1000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .f32 = 32 ∨ (Rect.block (s := S1000x512) S1000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16384x512_S1000x1_S1000x512_1_0_n_n_0_1_1512 : GatherDims S16384x512 S1000x1 S1000x512 where
  offsetDims := [1]
  collapsedSliceDims := [0]
  operandBatchingDims := []
  startIndicesBatchingDims := []
  startIndexMap := [0]
  indexVectorDim := 1
  sliceSizes := ![1, 512]
  wf := gather_S16384x512_S1000x1_S1000x512_1_0_n_n_0_1_1512_wf

abbrev win0_0 : Pipeline.Window sig grid0 :=
  Pipeline.Window.ofSpec (Memref.whole main_call0_v0) S1000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000 : Shape := ⟨1, ![1000]⟩
abbrev S_ : Shape := ⟨0, ![]⟩
abbrev S16384 : Shape := ⟨1, ![16384]⟩
abbrev S16384x1 : Shape := ⟨2, ![16384, 1]⟩
abbrev S1000x1 : Shape := ⟨2, ![1000, 1]⟩
abbrev S1000x512 : Shape := ⟨2, ![1000, 512]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000, .i32⟩
  | .hbm, ⟨2, _⟩ => ⟨S1000, .i32⟩
  | .hbm, ⟨3, _⟩ => ⟨S1000, .i32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x512, .f32⟩
  | .hbm, ⟨13, _⟩ => ⟨S16384x512, .f32⟩
  | .hbm, ⟨14, _⟩ => ⟨S_, .i32⟩
  | .hbm, ⟨15, _⟩ => ⟨S1000, .i32⟩
  | .hbm, ⟨16, _⟩ => ⟨S1000, .i1⟩
  | .hbm, ⟨17, _⟩ => ⟨S_, .i32⟩
  | .hbm, ⟨18, _⟩ => ⟨S1000, .i32⟩
  | .hbm, ⟨19, _⟩ => ⟨S1000, .i32⟩
  | .hbm, ⟨20, _⟩ => ⟨S1000, .i32⟩
  | .hbm, ⟨21, _⟩ => ⟨S1000x1, .i32⟩
  | .hbm, ⟨22, _⟩ => ⟨S1000x512, .f32⟩
  | .hbm, ⟨23, _⟩ => ⟨S_, .i32⟩
  | .hbm, ⟨24, _⟩ => ⟨S1000, .i32⟩
  | .hbm, ⟨25, _⟩ => ⟨S1000, .i1⟩
  | .hbm, ⟨26, _⟩ => ⟨S_, .i32⟩
  | .hbm, ⟨27, _⟩ => ⟨S1000, .i32⟩
  | .hbm, ⟨28, _⟩ => ⟨S1000, .i32⟩
  | .hbm, ⟨29, _⟩ => ⟨S1000, .i32⟩
  | .hbm, ⟨30, _⟩ => ⟨S1000x1, .i32⟩
  | .hbm, ⟨31, _⟩ => ⟨S1000x512, .f32⟩
  | .hbm, ⟨32, _⟩ => ⟨S_, .i32⟩
  | .hbm, ⟨33, _⟩ => ⟨S1000, .i32⟩
  | .hbm, ⟨34, _⟩ => ⟨S1000, .i1⟩
  | .hbm, ⟨35, _⟩ => ⟨S_, .i32⟩
  | .hbm, ⟨36, _⟩ => ⟨S1000, .i32⟩
  | .hbm, ⟨37, _⟩ => ⟨S1000, .i32⟩
  | .hbm, ⟨38, _⟩ => ⟨S1000, .i32⟩
  | .hbm, ⟨39, _⟩ => ⟨S1000x1, .i32⟩
  | .hbm, ⟨40, _⟩ => ⟨S1000x512, .f32⟩
  | .hbm, ⟨41, _⟩ => ⟨S1000x512, .f32⟩
  | .hbm, ⟨42, _⟩ => ⟨S_, .f32⟩
  | .hbm, ⟨43, _⟩ => ⟨S1000, .f32⟩
  | .hbm, ⟨44, _⟩ => ⟨S_, .f32⟩
  | .hbm, ⟨45, _⟩ => ⟨S1000, .f32⟩
  | .hbm, ⟨46, _⟩ => ⟨S1000, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S1000, .f32⟩
  | .hbm, ⟨51, _⟩ => ⟨S1000, .f32⟩
  | .hbm, ⟨52, _⟩ => ⟨S_, .f32⟩
  | .hbm, ⟨53, _⟩ => ⟨S1000, .f32⟩
  | .hbm, ⟨54, _⟩ => ⟨S1000, .f32⟩
  | .hbm, ⟨55, _⟩ => ⟨S1000x512, .f32⟩
  | .hbm, ⟨56, _⟩ => ⟨S_, .f32⟩
  | .hbm, ⟨57, _⟩ => ⟨S1000, .f32⟩
  | .hbm, ⟨58, _⟩ => ⟨S_, .f32⟩
  | .hbm, ⟨59, _⟩ => ⟨S1000, .f32⟩
  | .hbm, ⟨60, _⟩ => ⟨S1000, .f32⟩
  | .hbm, ⟨61, _⟩ => ⟨S1000, .f32⟩
  | .hbm, ⟨62, _⟩ => ⟨S1000, .f32⟩
  | .hbm, ⟨63, _⟩ => ⟨S_, .f32⟩
  | .hbm, ⟨64, _⟩ => ⟨S1000, .f32⟩
  | .hbm, ⟨65, _⟩ => ⟨S1000, .f32⟩
  | .hbm, ⟨66, _⟩ => ⟨S_, .f32⟩
  | .hbm, ⟨67, _⟩ => ⟨S1000, .f32⟩
  | .hbm, ⟨68, _⟩ => ⟨S1000, .f32⟩
  | .hbm, ⟨69, _⟩ => ⟨S1000x512, .f32⟩
  | .hbm, ⟨70, _⟩ => ⟨S_, .f32⟩
  | .hbm, ⟨71, _⟩ => ⟨S1000, .f32⟩
  | .hbm, ⟨72, _⟩ => ⟨S_, .f32⟩
  | .hbm, ⟨73, _⟩ => ⟨S1000, .f32⟩
  | .hbm, ⟨74, _⟩ => ⟨S1000, .f32⟩
  | .hbm, ⟨75, _⟩ => ⟨S1000, .f32⟩
  | .hbm, ⟨76, _⟩ => ⟨S1000, .f32⟩
  | .hbm, ⟨77, _⟩ => ⟨S_, .f32⟩
  | .hbm, ⟨78, _⟩ => ⟨S1000, .f32⟩
  | .hbm, ⟨79, _⟩ => ⟨S1000, .f32⟩
  | .hbm, ⟨80, _⟩ => ⟨S_, .f32⟩
  | .hbm, ⟨81, _⟩ => ⟨S1000, .f32⟩
  | .hbm, ⟨82, _⟩ => ⟨S1000, .f32⟩
  | .hbm, ⟨83, _⟩ => ⟨S1000, .f32⟩
  | .hbm, ⟨84, _⟩ => ⟨S1000, .f32⟩
  | .hbm, ⟨85, _⟩ => ⟨S_, .f32⟩
  | .hbm, ⟨86, _⟩ => ⟨S1000, .f32⟩
  | .hbm, ⟨87, _⟩ => ⟨S1000, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_cst_16 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_cst : Ref sig .tc := ⟨.hbm, 85, rfl⟩
abbrev main_call1_v0 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_cst_18 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S_S1000 : S_.BroadcastsInDim S1000 (![] : Fin 0 → Fin S1000.rank)
  bcast_S1000_S1000x1_0 : S1000.BroadcastsInDim S1000x1 (![0] : Fin 1 → Fin S1000x1.rank)
  reducesTo_S1000x512_S1000_d1 : S1000x512.ReducesTo [1] S1000
  reducesTo_S1000_S_d0 : S1000.ReducesTo [0] S_
  gather_S16384x512_S1000x1_S1000x512_1_0_n_n_0_1_1512_wf : GatherDims.WF S16384x512 S1000x1 S1000x512 [1] [0] [] [0] [] 1 ![1, 512]

variable [Facts₀]

def gather_S16384x512_S1000x1_S1000x512_1_0_n_n_0_1_1512 : GatherDims S16384x512 S1000x1 S1000x512 where
  offsetDims := [1]
  collapsedSliceDims := [0]
  operandBatchingDims := []
  startIndicesBatchingDims := []
  startIndexMap := [0]
  indexVectorDim := 1
  sliceSizes := ![1, 512]
  wf := gather_S16384x512_S1000x1_S1000x512_1_0_n_n_0_1_1512_wf

class Facts : Prop extends Facts₀ where

variable [Facts]
-- ==== Proof.KernelRows.lean ====
/-
  What the kernel's three input arrays hold when the pallas_call is entered: the picked rows of the table.

  Before the call the program picks, for each of the three index vectors, the rows the wrapped indices name
  (`startCol`: negative words wrapped from the end, laid out as an `[1000, 1]` column of start indices), and
  then overwrites with a fill word every row whose wrapped index is outside `[0, 16383]` (`inTable`, the
  per-position test, splat along the row). `takeRows` is that term; the three arrays the call's windows stage
  are `takeRows` of the table and of the first, second and third index vector.
-/
import proofs.«430122_j18631568130669_2_alg».proof.Proof.Gen.KernelIdeal.Frame
import Idealize.ShloMosaic.Lib.StableHlo.Run

set_option maxRecDepth 16384

noncomputable section

namespace Cert.KernelIdeal.Rows

open Cert.KernelIdeal Cert.KernelIdeal.Gen
open Idealize.ShloMosaic Idealize.ShloMosaic.TcCoe Idealize.SL.Sem Idealize.ShloMosaic.StableHlo

variable {F : FTy → Type} [FloatOps F]

/-- The wrapped indices as the column of start indices the gather reads. -/
def startCol (x : IVec S1000 32) : IVec S1000x1 32 :=
  broadcastInDim S1000x1 ![0] bcast_S1000_S1000x1_0
    (select (cmpi .slt x (broadcastInDim S1000 ![] bcast_S_S1000 (constantI S_ 32 0#32)))
      (addi x (broadcastInDim S1000 ![] bcast_S_S1000 (constantI S_ 32 16384#32))) x)

/-- Per position: is the wrapped index a row number of the table, `0 ≤ · ≤ 16383`? -/
def inTable (x : IVec S1000 32) : IVec S1000 1 :=
  Host.reduce IntOp.andi
    (andi (cmpi .sge (startCol x) (broadcastInDim S1000x1 ![] bcast_S_S1000x1 (constantI S_ 32 0#32)))
      (cmpi .sle (startCol x) (broadcastInDim S1000x1 ![0, 1] bcast_S1x1_S1000x1_0_1
        (broadcastInDim S1x1 ![1] bcast_S1_S1x1_1 (constantI S1 32 16383#32)))))
    (constantI S_ 1 1#1) reducesTo_S1000x1_S1000_d1 h_S_

/-- The rows picked, with the rows of out-of-table positions replaced by the fill word. -/
def takeRows (e : FVec F S16384x512 .f32) (x : IVec S1000 32) : FVec F S1000x512 .f32 :=
  select (broadcastInDim S1000x512 ![0] bcast_S1000_S1000x512_0 (inTable x))
    (Host.gather gather_S16384x512_S1000x1_S1000x512_1_0_n_n_0_1_1512 e (startCol x))
    (broadcastInDim S1000x512 ![] bcast_S_S1000x512 (constant S_ .f32 0x7FC00000#32))

variable (m : (ℓ : Loc nD τ sig) → Buf (Elt F) ℓ)

set_option maxHeartbeats 8000000 in
/-- The first window's array: the rows the first index vector picks. -/
theorem V_rows0 (c : Dev nD) : V m c main_call0_v0
    = takeRows (F := F) (m ((c : Thread nD τ).loc main_arg0)) (m ((c : Thread nD τ).loc main_arg1)) := by
  show StableHlo.after hostOps0 (fun b => m (c, b)) (Proc.devRef .tc main_call0_v0) = _
  after_results
  rfl

set_option maxHeartbeats 8000000 in
/-- The second window's array: the rows the second index vector picks. -/
theorem V_rows1 (c : Dev nD) : V m c main_call0_v1
    = takeRows (F := F) (m ((c : Thread nD τ).loc main_arg0)) (m ((c : Thread nD τ).loc main_arg2)) := by
  show StableHlo.after hostOps0 (fun b => m (c, b)) (Proc.devRef .tc main_call0_v1) = _
  after_results
  rfl

set_option maxHeartbeats 8000000 in
/-- The third window's array: the rows the third index vector picks. -/
theorem V_rows2 (c : Dev nD) : V m c main_call0_v2
    = takeRows (F := F) (m ((c : Thread nD τ).loc main_arg0)) (m ((c : Thread nD τ).loc main_arg3)) := by
  show StableHlo.after hostOps0 (fun b => m (c, b)) (Proc.devRef .tc main_call0_v2) = _
  after_results
  rfl

end Cert.KernelIdeal.Rows

end
-- ==== Proof.Spec.lean ====
/-
  The sampled-triplet transitivity loss as ONE function of the embedding table and the three index vectors.

  A triplet position `s` names three rows of the table, one per index vector. An index word `x` names row
  `x` when it is non-negative and row `x + 16384` when it is negative (Python's wrap), and a row gather then
  clamps that into `[0, 16383]`: `rowOf`. A row `r` enters only through its unit vector
  `r / max (‖r‖, ε)` (`unitRow`; the norm is the square root of the sum of squares, `ε` the f32 word both
  programs carry), two rows through the sum of the products of their unit vectors (`cosine`), and position
  `s` contributes `max (σ(c_ij) · σ(c_jk) − σ(c_ik), 0)` with `σ` the logistic function. The loss is the sum
  of the contributions over the 1000 positions divided by the f32 word for 1000.

  Whether a row is normalised before or after it is picked out of the table makes no difference: the unit
  vector of a row depends on that row alone, so everything here is written over the picked rows.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Affine

noncomputable section

open scoped BigOperators

namespace Cert.Triplet

open Idealize.ShloMosaic Idealize.ShloMosaic.ValueIdx

/-- The embedding table: 16384 rows of 512 extended reals. -/
abbrev Table := (⟨2, ![16384, 512]⟩ : Shape).Idx → EReal
/-- An index vector: 1000 words. -/
abbrev Words := (⟨1, ![1000]⟩ : Shape).Idx → BitVec 32
/-- The rows picked at the 1000 positions. -/
abbrev Rows := Fin 1000 → Fin 512 → EReal

/-! ## Which row an index word names -/

/-- Python's wrap of one index word: a negative word is taken from the end of the table. -/
def wrapWord (x : BitVec 32) : BitVec 32 :=
  Scalar.select (IntOp.cmpi .slt x 0#32) (IntOp.addi x 16384#32) x

/-- A word in `[-16384, 16384)` wraps to a row number in `[0, 16383]`. -/
theorem wrapWord_range (x : BitVec 32) (h0 : -16384 ≤ x.toInt) (h1 : x.toInt < 16384) :
    0 ≤ (wrapWord x).toInt ∧ (wrapWord x).toInt ≤ 16383 := by
  unfold wrapWord
  by_cases hneg : x.toInt < 0
  · have hc : IntOp.cmpi .slt x 0#32 = 1#1 := IntOp.cmpi_slt.mpr (by simpa using hneg)
    rw [hc, select_one]
    have hadd : (IntOp.addi x 16384#32).toInt = x.toInt + 16384 := by
      show (x + 16384#32).toInt = _
      rw [BitVec.toInt_add]
      have : (16384#32 : BitVec 32).toInt = 16384 := by decide
      rw [this]
      simp only [Int.bmod, Nat.reducePow, Nat.cast_ofNat]
      omega
    rw [hadd]; omega
  · have hc : IntOp.cmpi .slt x 0#32 = 0#1 :=
      eq_zero_of_ne_one fun h => hneg (by simpa using IntOp.cmpi_slt.mp h)
    rw [hc, select_zero]; omega

/-- The table row position `s` of an index vector names: the wrapped word read signed and clamped into the table. -/
def rowOf (x : Words) (s : Fin 1000) : Fin 16384 :=
  ⟨min (wrapWord (x (ix1 s))).toInt.toNat 16383, by omega⟩

/-- The rows an index vector picks out of the table. -/
def rowsOf (e : Table) (x : Words) : Rows := fun s k => e (ix2 (rowOf x s) k)

/-! ## The loss over picked rows -/

/-- Entry `k` of the unit vector of the row at position `s`: the entry over `max (‖row‖, ε)`. -/
def unitRow (X : Rows) (s : Fin 1000) (k : Fin 512) : EReal :=
  Ideal.div (X s k) (max (Ideal.sqrt (∑ k' : Fin 512, X s k' * X s k')) (Ideal.ofBits .f32 0x2B8CBCCC#32))

/-- The similarity of two picked rows at position `s`: the sum of the products of their unit vectors. -/
def cosine (X Y : Rows) (s : Fin 1000) : EReal := ∑ k : Fin 512, unitRow X s k * unitRow Y s k

/-- What position `s` contributes: how far the product of the two outer probabilities exceeds the direct one. -/
def violation (X Y Z : Rows) (s : Fin 1000) : EReal :=
  max (Ideal.logistic (cosine X Y s) * Ideal.logistic (cosine Y Z s) - Ideal.logistic (cosine X Z s)) 0

/-- The contributions summed over the positions, over the f32 word for 1000. -/
def meanViolation (X Y Z : Rows) : EReal :=
  Ideal.div (∑ s : Fin 1000, violation X Y Z s) (Ideal.ofBits .f32 0x447A0000#32)

/-- THE LOSS of a table and three index vectors. -/
def loss (e : Table) (xi xj xk : Words) : EReal :=
  meanViolation (rowsOf e xi) (rowsOf e xj) (rowsOf e xk)

/-! ## Two laws of the extended reals the two programs differ by -/

/-- Dividing by one changes nothing, at the infinities too. -/
theorem div_one (x : EReal) : Ideal.div x 1 = x := by
  have h := Ideal.div_coe (one_ne_zero : (1 : ℝ) ≠ 0) x
  simp only [EReal.coe_one, div_self (one_ne_zero : (1 : ℝ) ≠ 0), mul_one] at h
  exact h

/-- The logistic function written out with a temperature of one, `1 / (1 + e^(-(x / 1)))`, is the logistic function. -/
theorem logistic_spelt (x : EReal) : Ideal.div 1 (1 + Ideal.exp (-(Ideal.div x 1))) = Ideal.logistic x := by
  rw [div_one]; rfl

end Cert.Triplet

end
-- ==== Proof.LibGatherRows.lean ====
/-
  Picking rows out of a table: a gather of whole rows read at an entry.

  `table[idx]` for a table of `N` rows of `m` entries and `n` row numbers prints as a gather whose start
  indices are the `[n, 1]` column of row numbers, whose row axis is collapsed and start-indexed, whose entry axis
  is the one offset axis (a slice of one row, all `m` entries), with no batching axes and the index vector on
  axis 1. Entry `(s, k)` of the result is entry `k` of the table row that start index `s` names, the start
  index read as a signed integer and clamped into `[0, N - 1]`: a negative number reads row 0, one past the end
  the last row. The row read depends on `s` alone and the entry within it is `k`, which is what lets any
  row-by-row operation on the table be done before or after the rows are picked.
-/
import Idealize.ShloMosaic.PureOps.ShapeOps
import Idealize.ShloMosaic.Lib.ValueIdx

namespace Cert.GatherRows

open Idealize.ShloMosaic Idealize.ShloMosaic.ValueIdx

variable {α : Type}

/-- The dimension numbers of a gather of whole rows: table `[N, m]`, start indices `[n, 1]`, result `[n, m]`. -/
abbrev rowDims (N m n : Nat)
    (wf : GatherDims.WF ⟨2, ![N, m]⟩ ⟨2, ![n, 1]⟩ ⟨2, ![n, m]⟩ [1] [0] [] [0] [] 1 ![1, m]) :
    GatherDims ⟨2, ![N, m]⟩ ⟨2, ![n, 1]⟩ ⟨2, ![n, m]⟩ where
  offsetDims := [1]
  collapsedSliceDims := [0]
  operandBatchingDims := []
  startIndicesBatchingDims := []
  startIndexMap := [0]
  indexVectorDim := 1
  sliceSizes := ![1, m]
  wf := wf

/-- The table row that start index `s` names: the word read signed, clamped into the table. -/
def rowAt {N n w : Nat} (hN : 0 < N) (idx : IVec ⟨2, ![n, 1]⟩ w) (s : Fin n) : Fin N :=
  ⟨min (idx (ix2 s (0 : Fin 1))).toInt.toNat (N - 1), by omega⟩

/-- THE ROW GATHER READ AT `(s, k)`: entry `k` of the table row start index `s` names. -/
theorem gather_rows_apply {N m n w : Nat} (hN : 0 < N)
    (wf : GatherDims.WF ⟨2, ![N, m]⟩ ⟨2, ![n, 1]⟩ ⟨2, ![n, m]⟩ [1] [0] [] [0] [] 1 ![1, m])
    (x : (⟨2, ![N, m]⟩ : Shape).Idx → α) (idx : IVec ⟨2, ![n, 1]⟩ w) (s : Fin n) (k : Fin m) :
    Host.gather (rowDims N m n wf) x idx (ix2 s k) = x (ix2 (rowAt hN idx s) k) := by
  unfold Host.gather
  congr 1
  funext a
  refine Fin.ext ?_
  match a with
  | ⟨0, _⟩ =>
    show (rowDims N m n wf).start (ix2 s k) idx 0 + (rowDims N m n wf).batchCoord (ix2 s k) 0
        + (rowDims N m n wf).offCoord (ix2 s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N m n wf).startIndexMap from List.mem_singleton.mpr rfl)]
    have hsi : (rowDims N m n wf).siIdx (ix2 s k) ⟨List.idxOf (0 : Fin 2) (rowDims N m n wf).startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show (rowDims N m n wf).start (ix2 s k) idx 1 + (rowDims N m n wf).batchCoord (ix2 s k) 1
        + (rowDims N m n wf).offCoord (ix2 s k) 1 = k.val
    have hst : (rowDims N m n wf).start (ix2 s k) idx 1 = 0 := by
      unfold GatherDims.start
      rw [dif_neg (show (1 : Fin 2) ∉ (rowDims N m n wf).startIndexMap from
        fun h => absurd (List.mem_singleton.mp h) (fun e => Nat.one_ne_zero (congrArg Fin.val e)))]
    rw [GatherDims.batchCoord_eq_zero _ _ _ List.not_mem_nil, hst]
    simp only [Nat.zero_add, Nat.add_zero]
    unfold GatherDims.offCoord
    rw [dif_pos (show (1 : Fin 2) ∈ (rowDims N m n wf).sKept from
      (GatherDims.mem_sKept _ _).mpr ⟨fun h => absurd (List.mem_singleton.mp h) (fun e => Nat.one_ne_zero (congrArg Fin.val e)), List.not_mem_nil⟩)]
    rfl

end Cert.GatherRows
-- ==== Proof.IndexRange.lean ====
/-
  The added precondition read back: every index word lies in `[-16384, 16384)`.

  The precondition is the conjunction of the finiteness of the table with, per index vector, "every word is at
  least -16384 and below 16384" (signed comparisons against splat constants, reduced by `and` over the vector).
  Its value being one gives each conjunct, each reduction being one gives every element, and an element being
  one gives the two signed inequalities of that word.
-/
import proofs.«430122_j18631568130669_2_alg».proof.Pre_finite_inputs
import proofs.«430122_j18631568130669_2_alg».proof.Proof.Spec
import Idealize.ShloMosaic.Lib.ReduceAll
import Idealize.ShloMosaic.Lib.Pipeline.Value

noncomputable section

namespace Cert.Triplet

open Idealize.ShloMosaic Idealize.ShloMosaic.ValueIdx

/-- Every word of an index vector lies in `[-16384, 16384)`: wrapped, it is a row number of the table. -/
def InRange (x : Words) : Prop := ∀ s : Fin 1000, -16384 ≤ (x (ix1 s)).toInt ∧ (x (ix1 s)).toInt < 16384

/-- The scalar shape has one index. -/
instance : Subsingleton (⟨0, ![]⟩ : Shape).Idx := ⟨fun _ _ => funext fun d => d.elim0⟩

/-- A splat of a scalar word reads that word everywhere. -/
theorem splat_apply {t : Shape} (h : (⟨0, ![]⟩ : Shape).BroadcastsInDim t (![] : Fin 0 → Fin t.rank)) (w : BitVec 32) (i : t.Idx) :
    broadcastInDim t ![] h (constantI ⟨0, ![]⟩ 32 w) i = w :=
  broadcastInDim_apply _ h (constantI ⟨0, ![]⟩ 32 w) i ix0 (fun a => a.elim0)

/-- One index vector's conjunct: the `and`-reduction of the two comparisons being one bounds every word. -/
theorem inRange_of_all (hb : (⟨0, ![]⟩ : Shape).BroadcastsInDim ⟨1, ![1000]⟩ (![] : Fin 0 → Fin 1))
    (hr : (⟨1, ![1000]⟩ : Shape).ReducesTo [0] ⟨0, ![]⟩) (hu : 0 < (⟨0, ![]⟩ : Shape).numel) (x : Words) (init : IVec ⟨0, ![]⟩ 1)
    (e : Host.reduce IntOp.andi
        (andi (cmpi .sge x (broadcastInDim ⟨1, ![1000]⟩ ![] hb (constantI ⟨0, ![]⟩ 32 4294950912#32)))
          (cmpi .slt x (broadcastInDim ⟨1, ![1000]⟩ ![] hb (constantI ⟨0, ![]⟩ 32 16384#32)))) init hr hu ix0 = 1#1) :
    InRange x := by
  intro s
  have h := Host.reduce_andi_all _ init hr hu ix0 e (ix1 s)
  have h' : IntOp.andi (IntOp.cmpi .sge (x (ix1 s)) 4294950912#32) (IntOp.cmpi .slt (x (ix1 s)) 16384#32) = 1#1 := by
    rw [← splat_apply hb 4294950912#32 (ix1 s), ← splat_apply hb 16384#32 (ix1 s)]
    exact h
  obtain ⟨hge, hlt⟩ := IntOp.andi_eq_one.mp h'
  have h1 := IntOp.cmpi_sge.mp hge
  have h2 := IntOp.cmpi_slt.mp hlt
  have c1 : (4294950912#32 : BitVec 32).toInt = -16384 := by decide
  have c2 : (16384#32 : BitVec 32).toInt = 16384 := by decide
  rw [c1] at h1; rw [c2] at h2
  exact ⟨h1, h2⟩

/-- THE PRECONDITION DECODED: where it is all ones, the three index vectors are in range. -/
theorem inRange_of_pre [Cert.Pre_finite_inputs.Facts] {F : FTy → Type} [FloatOps F]
    (e : FVec F Cert.Pre_finite_inputs.S16384x512 .f32) (xi xj xk : Words)
    (h : Cert.Pre_finite_inputs.fn (F := F) e xi xj xk = fun _ => 1#1) : InRange xi ∧ InRange xj ∧ InRange xk := by
  have h0 := congrFun h ix0
  unfold Cert.Pre_finite_inputs.fn Cert.Pre_finite_inputs.fn_part1 at h0
  dsimp only at h0
  obtain ⟨h12, h3⟩ := IntOp.andi_eq_one.mp h0
  obtain ⟨h1, h2⟩ := IntOp.andi_eq_one.mp h12
  obtain ⟨-, h1⟩ := IntOp.andi_eq_one.mp h1
  exact ⟨inRange_of_all _ _ _ xi _ h1, inRange_of_all _ _ _ xj _ h2, inRange_of_all _ _ _ xk _ h3⟩

end Cert.Triplet

end
-- ==== Proof.KernelPick.lean ====
/-
  In range, the fill never applies: the kernel's input arrays are the picked rows themselves.

  The start column read at position `s` is the wrap of the `s`-th index word. When every word lies in
  `[-16384, 16384)` the wrapped word is a row number, so both comparisons of the in-table test hold at every
  position, their `and`-reduction is one, and the select keeps the gathered row. The gathered row at `(s, k)` is
  entry `k` of the table row the clamped start index names, which is `rowOf` of the index vector at `s`.
-/
import proofs.«430122_j18631568130669_2_alg».proof.Proof.KernelRows
import proofs.«430122_j18631568130669_2_alg».proof.Proof.Spec
import proofs.«430122_j18631568130669_2_alg».proof.Proof.LibGatherRows
import proofs.«430122_j18631568130669_2_alg».proof.Proof.IndexRange
import Idealize.ShloMosaic.Lib.Pipeline.Value
import Idealize.ShloMosaic.Lib.ReduceAll

set_option maxRecDepth 16384

noncomputable section

namespace Cert.KernelIdeal.Rows

open Cert.KernelIdeal Cert.KernelIdeal.Gen
open Idealize.ShloMosaic Idealize.ShloMosaic.ValueIdx
open Cert.Triplet Cert.GatherRows

variable {F : FTy → Type} [FloatOps F]

/-- A left fold by `and` from one over words that are all one is one. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-- An `and`-reduction from one of an array that is one everywhere is one everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- The start column at position `s` is the wrap of the `s`-th index word. -/
theorem startCol_apply (x : IVec S1000 32) (s : Fin 1000) (u : Fin 1) : startCol x (ix2 s u) = wrapWord (x (ix1 s)) := by
  unfold startCol
  rw [broadcastInDim_apply _ bcast_S1000_S1000x1_0 _ (ix2 s u) (ix1 s) (fun a => match a with
    | ⟨0, _⟩ => by show s.val = if (1000 : Nat) = 1 then 0 else s.val; rw [if_neg (by decide)])]
  show Scalar.select (IntOp.cmpi .slt (x (ix1 s)) (broadcastInDim S1000 ![] bcast_S_S1000 (constantI S_ 32 0#32) (ix1 s)))
      (IntOp.addi (x (ix1 s)) (broadcastInDim S1000 ![] bcast_S_S1000 (constantI S_ 32 16384#32) (ix1 s))) (x (ix1 s)) = _
  rw [splat_apply, splat_apply]
  rfl

/-- In range, the in-table test holds at every position. -/
theorem inTable_one (x : IVec S1000 32) (hx : InRange x) (i : S1000.Idx) : inTable x i = 1#1 := by
  unfold inTable
  refine reduce_andi_one _ _ _ _ (fun j => ?_) rfl i
  obtain ⟨p, u, rfl⟩ : ∃ (p : Fin 1000) (u : Fin 1), j = ix2 p u := ⟨j 0, j 1, eq_ix2 j⟩
  show IntOp.andi
      (IntOp.cmpi .sge (startCol x (ix2 p u)) (broadcastInDim S1000x1 ![] bcast_S_S1000x1 (constantI S_ 32 0#32) (ix2 p u)))
      (IntOp.cmpi .sle (startCol x (ix2 p u)) (broadcastInDim S1000x1 ![0, 1] bcast_S1x1_S1000x1_0_1
        (broadcastInDim S1x1 ![1] bcast_S1_S1x1_1 (constantI S1 32 16383#32)) (ix2 p u))) = 1#1
  have hb : broadcastInDim S1000x1 ![0, 1] bcast_S1x1_S1000x1_0_1
      (broadcastInDim S1x1 ![1] bcast_S1_S1x1_1 (constantI S1 32 16383#32)) (ix2 p u) = 16383#32 := by
    rw [broadcastInDim_apply _ bcast_S1x1_S1000x1_0_1 _ (ix2 p u) (ix2 (0 : Fin 1) (0 : Fin 1)) (fun a => match a with
      | ⟨0, _⟩ => by show (0 : Nat) = if (1 : Nat) = 1 then 0 else p.val; rw [if_pos rfl]
      | ⟨1, _⟩ => by show (0 : Nat) = if (1 : Nat) = 1 then 0 else u.val; rw [if_pos rfl])]
    rw [broadcastInDim_apply _ bcast_S1_S1x1_1 _ (ix2 (0 : Fin 1) (0 : Fin 1)) (ix1 (0 : Fin 1)) (fun a => match a with
      | ⟨0, _⟩ => by show (0 : Nat) = if (1 : Nat) = 1 then 0 else (0 : Nat); rw [if_pos rfl])]
    rfl
  rw [startCol_apply, splat_apply, hb]
  obtain ⟨h0, h1⟩ := wrapWord_range _ (hx p).1 (hx p).2
  have c0 : (0#32 : BitVec 32).toInt = 0 := by decide
  have c1 : (16383#32 : BitVec 32).toInt = 16383 := by decide
  exact IntOp.andi_eq_one.mpr ⟨IntOp.cmpi_sge.mpr (by rw [c0]; exact h0), IntOp.cmpi_sle.mpr (by rw [c1]; exact h1)⟩

/-- IN RANGE, `takeRows` at `(s, k)` is entry `k` of the table row the index vector names at `s`. -/
theorem takeRows_apply (e : FVec F S16384x512 .f32) (x : IVec S1000 32) (hx : InRange x) (s : Fin 1000) (k : Fin 512) :
    takeRows (F := F) e x (ix2 s k) = e (ix2 (rowOf x s) k) := by
  unfold takeRows
  rw [select_apply]
  have hm : broadcastInDim S1000x512 ![0] bcast_S1000_S1000x512_0 (inTable x) (ix2 s k) = 1#1 := by
    rw [broadcastInDim_apply _ bcast_S1000_S1000x512_0 _ (ix2 s k) (ix1 s) (fun a => match a with
      | ⟨0, _⟩ => by show s.val = if (1000 : Nat) = 1 then 0 else s.val; rw [if_neg (by decide)])]
    exact inTable_one x hx _
  rw [hm, select_one]
  show Host.gather (rowDims 16384 512 1000 gather_S16384x512_S1000x1_S1000x512_1_0_n_n_0_1_1512_wf) e (startCol x) (ix2 s k) = _
  rw [gather_rows_apply (by decide)]
  refine congrArg e (congrArg (fun r => ix2 r k) (Fin.ext ?_))
  show min (startCol x (ix2 s (0 : Fin 1))).toInt.toNat (16384 - 1) = min (wrapWord (x (ix1 s))).toInt.toNat 16383
  rw [startCol_apply]

end Cert.KernelIdeal.Rows

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KernelLoss.lean ====
/-
  The body's arithmetic, read: what the kernel stores is the mean violation of the three blocks it loads.

  Each loaded block is a `[1000, 512]` array of picked rows. The body squares it, sums each row, keeps the sums
  as a column, takes square roots, raises them to at least `ε`, spreads the column back along the rows and
  divides: entry `(s, k)` becomes entry `k` of the unit vector of row `s`. Products of two such arrays summed
  along the rows are the similarities; each is multiplied by the word for one (which changes nothing) and sent
  through the logistic function; the three probabilities combine into the violation, clipped below at zero; the
  violations are summed over the 1000 positions and the sum divided by the word for 1000.
-/
import proofs.«430122_j18631568130669_2_alg».proof.Proof.Gen.KernelIdeal.Skeleton
import proofs.«430122_j18631568130669_2_alg».proof.Proof.Spec
import proofs.«430122_j18631568130669_2_alg».proof.Proof.LibColumns
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.ValueIdx
open Cert.Triplet Cert.Columns

/-- A `[1000, 512]` array as 1000 rows of 512 entries. -/
def rows (X : FVec Ideal S1000x512 .f32) : Rows := fun s k => X (ix2 s k)

/-- A sum along the rows of a `[1000, 512]` array, at row `s`. -/
theorem rowSum_apply (v : FVec Ideal S1000x512 .f32) (h : S1000x512.Reduces [1] S1000) (hφ : FKind.Formats .f32)
    (hacc : (0x00000000#32 : BitVec 32) = FKind.add.neutral .f32 hφ) (s : Fin 1000) :
    multiReduction .add [1] S1000 v 0x00000000#32 h hφ hacc (ix1 s) = ∑ k : Fin 512, v (ix2 s k) :=
  (Ideal.multiReduction_add_single v _ h hφ hacc (ix1 s)).trans
    (Finset.sum_congr rfl fun k _ => congrArg v (funext fun a => Fin.ext (by
      match a with
      | ⟨0, _⟩ => rfl
      | ⟨1, _⟩ => rfl)))

/-- A sum down the one column of a `[1000, 1]` array. -/
theorem colSum_apply (v : FVec Ideal S1000x1 .f32) (h : S1000x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ s : Fin 1000, v (ix2 s (0 : Fin 1)) :=
  (Ideal.multiReduction_add_single v _ h hφ hacc (ix1 u)).trans
    (Finset.sum_congr rfl fun s _ => congrArg v (funext fun a => Fin.ext (by
      have hu : u.val = 0 := by omega
      match a with
      | ⟨0, _⟩ => rfl
      | ⟨1, _⟩ => exact hu)))

/-- The normalised block at `(s, k)`: entry `k` of the unit vector of row `s` (first loaded block). -/
theorem pay2_apply (X : FVec Ideal S1000x512 .f32) (s : Fin 1000) (k : Fin 512) :
    k0_pay2 (F := Ideal) X (ix2 s k) = unitRow (rows X) s k := by
  unfold k0_pay2
  simp only [shapeCast_self]
  rw [divf_apply]
  refine congrArg (Ideal.div (X (ix2 s k))) ?_
  refine (broadcastTo_a1_ab_apply _ _ s k).trans ?_
  rw [maximumf_apply]
  refine congrArg (fun z => max z _) ?_
  show Ideal.sqrt (shapeCast S1000x1 _ _ (ix2 s (0 : Fin 1))) = _
  refine congrArg Ideal.sqrt ?_
  refine (shapeCast_a_a1_apply _ _ s 0).trans ?_
  exact rowSum_apply _ _ _ _ s

/-- The same for the second loaded block. -/
theorem pay3_apply (X : FVec Ideal S1000x512 .f32) (s : Fin 1000) (k : Fin 512) :
    k0_pay3 (F := Ideal) X (ix2 s k) = unitRow (rows X) s k := by
  unfold k0_pay3
  simp only [shapeCast_self]
  rw [divf_apply]
  refine congrArg (Ideal.div (X (ix2 s k))) ?_
  refine (broadcastTo_a1_ab_apply _ _ s k).trans ?_
  rw [maximumf_apply]
  refine congrArg (fun z => max z _) ?_
  show Ideal.sqrt (shapeCast S1000x1 _ _ (ix2 s (0 : Fin 1))) = _
  refine congrArg Ideal.sqrt ?_
  refine (shapeCast_a_a1_apply _ _ s 0).trans ?_
  exact rowSum_apply _ _ _ _ s

/-- The same for the third loaded block. -/
theorem pay4_apply (X : FVec Ideal S1000x512 .f32) (s : Fin 1000) (k : Fin 512) :
    k0_pay4 (F := Ideal) X (ix2 s k) = unitRow (rows X) s k := by
  unfold k0_pay4
  simp only [shapeCast_self]
  rw [divf_apply]
  refine congrArg (Ideal.div (X (ix2 s k))) ?_
  refine (broadcastTo_a1_ab_apply _ _ s k).trans ?_
  rw [maximumf_apply]
  refine congrArg (fun z => max z _) ?_
  show Ideal.sqrt (shapeCast S1000x1 _ _ (ix2 s (0 : Fin 1))) = _
  refine congrArg Ideal.sqrt ?_
  refine (shapeCast_a_a1_apply _ _ s 0).trans ?_
  exact rowSum_apply _ _ _ _ s

/-- A probability column at position `s`: the logistic function of the similarity of two normalised blocks whose
    entries are unit-vector entries (`hA`, `hB`). -/
theorem prob_apply (A B : FVec Ideal S1000x512 .f32) (X Y : Rows)
    (hA : ∀ s k, A (ix2 s k) = unitRow X s k) (hB : ∀ s k, B (ix2 s k) = unitRow Y s k)
    (h : S1000x512.Reduces [1] S1000) (hφ : FKind.Formats .f32) (hacc : (0x00000000#32 : BitVec 32) = FKind.add.neutral .f32 hφ)
    (hc : S1000.ShapeCasts S1000x1) (s : Fin 1000) (u : Fin 1) :
    logistic (mulf (shapeCast S1000x1 (multiReduction .add [1] S1000 (mulf A B) 0x00000000#32 h hφ hacc) hc)
        (broadcast S1000x1 (Scalar.ofBits (F := Ideal) .f32 0x3F800000#32))) (ix2 s u)
      = Ideal.logistic (cosine X Y s) := by
  show Ideal.logistic (shapeCast S1000x1 _ hc (ix2 s u) * Ideal.ofBits .f32 0x3F800000#32) = _
  rw [Ideal.ofBits_one_f32, mul_one]
  refine congrArg Ideal.logistic ?_
  refine (shapeCast_a_a1_apply _ _ s u).trans ?_
  refine (rowSum_apply _ _ _ _ s).trans ?_
  unfold cosine
  exact Finset.sum_congr rfl fun k _ => by rw [mulf_apply, hA, hB]

/-- THE STORED VALUE: at its one index, the mean violation of the three loaded blocks' rows. -/
theorem stored_apply (X0 X1 X2 : FVec Ideal S1000x512 .f32) (i : S1x1.Idx) :
    k0_pay1 (F := Ideal) (k0_pay5 X0 X1) (k0_pay6 X1 X2) (k0_pay7 X0 X2) i
      = meanViolation (rows X0) (rows X1) (rows X2) := by
  obtain ⟨p, q, rfl⟩ : ∃ (p : Fin 1) (q : Fin 1), i = ix2 p q := ⟨i 0, i 1, eq_ix2 i⟩
  unfold k0_pay1
  rw [divf_apply]
  unfold meanViolation
  refine congrArg (fun z => Ideal.div z (Ideal.ofBits .f32 0x447A0000#32)) ?_
  have hpq : (ix2 p q : S1x1.Idx) = ix2 p (0 : Fin 1) := by
    have : q = 0 := Subsingleton.elim _ _
    rw [this]
  rw [hpq]
  refine (shapeCast_a_a1_apply _ _ p 0).trans ?_
  refine (colSum_apply _ _ _ _ p).trans ?_
  refine Finset.sum_congr rfl fun s _ => ?_
  rw [maximumf_apply, subf_apply, mulf_apply]
  unfold violation
  have h5 : k0_pay5 (F := Ideal) X0 X1 (ix2 s (0 : Fin 1)) = Ideal.logistic (cosine (rows X0) (rows X1) s) := by
    unfold k0_pay5
    exact prob_apply _ _ _ _ (pay2_apply X0) (pay3_apply X1) _ _ _ _ s 0
  have h6 : k0_pay6 (F := Ideal) X1 X2 (ix2 s (0 : Fin 1)) = Ideal.logistic (cosine (rows X1) (rows X2) s) := by
    unfold k0_pay6
    exact prob_apply _ _ _ _ (pay3_apply X1) (pay4_apply X2) _ _ _ _ s 0
  have h7 : logistic (mulf (shapeCast S1000x1 (multiReduction .add [1] S1000 (k0_pay7 (F := Ideal) X0 X2) 0x00000000#32
        reduces_S1000x512_S1000 (.inl rfl) rfl) shapeCasts_S1000_S1000x1)
        (broadcast S1000x1 (Scalar.ofBits (F := Ideal) .f32 0x3F800000#32))) (ix2 s (0 : Fin 1))
      = Ideal.logistic (cosine (rows X0) (rows X2) s) := by
    unfold k0_pay7
    exact prob_apply _ _ _ _ (pay2_apply X0) (pay4_apply X2) _ _ _ _ s 0
  rw [h5, h6]
  refine congrArg₂ max (congrArg (fun z => _ - z) h7) ?_
  show Ideal.ofBits .f32 0x00000000#32 = 0
  exact Ideal.ofBits_zero_f32

end Cert.KernelIdeal.Body

end
-- ==== Proof.KernelValue.lean ====
/-
  The kernel's run, read: its result is the loss of the table and the three index vectors.

  The pallas_call has one grid point, and at it each window's block is its whole array: the three input blocks
  are the three arrays of picked rows, and what the body leaves in the output's buffer is written back over the
  whole `[1, 1]` result array. The host then reshapes that array to a scalar. With the index vectors in range the
  picked rows are the table's own rows (no fill), so the stored value — the mean violation of the three blocks'
  rows — is the loss.
-/
import proofs.«430122_j18631568130669_2_alg».proof.Proof.KernelPick
import proofs.«430122_j18631568130669_2_alg».proof.Proof.KernelLoss
import proofs.«430122_j18631568130669_2_alg».proof.Proof.Gen.KernelIdeal.Frame
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Rows Cert.KernelIdeal.Body
open Idealize.ShloMosaic Idealize.ShloMosaic.TcCoe Idealize.SL.Sem Idealize.ShloMosaic.StableHlo
open Idealize.ShloMosaic.ValueIdx
open Idealize.ShloMosaic.Pipeline (Dat)
open Cert.Triplet

variable (m : (ℓ : Loc nD τ sig) → Buf (Elt Ideal) ℓ) (ρ : Dev nD → PrngReg)

theorem hz : (![0, 0] : Fin 2 → Nat) = fun _ => 0 := funext fun a => by fin_cases a <;> rfl

/-- The three index vectors of the launch memory are in range, on every device. -/
def ArgsInRange : Prop := ∀ c : Dev nD,
  InRange (m ((c : Thread nD τ).loc main_arg1)) ∧ InRange (m ((c : Thread nD τ).loc main_arg2))
    ∧ InRange (m ((c : Thread nD τ).loc main_arg3))

/-- The loss of the launch contents of the four arguments on device `c`. -/
def lossOf (c : Dev nD) : EReal :=
  loss (m ((c : Thread nD τ).loc main_arg0)) (m ((c : Thread nD τ).loc main_arg1))
    (m ((c : Thread nD τ).loc main_arg2)) (m ((c : Thread nD τ).loc main_arg3))

/-- At the one grid point the first window's block is its whole array. -/
theorem iblk0 (c : Dev nD) : iblk m c 0 t0_0 = V m c main_call0_v0 := by
  unfold iblk
  have hz' : (fun a => win0_0.index t0_0 a * main_call0_v0.ty.shape.size a) = fun _ => 0 :=
    funext fun a => by fin_cases a <;> decide
  exact Memref.read_access_unit_zero (Elt Ideal) main_call0_v0 hz' (fun a => by rw [congrFun hz' a]; simp) _

/-- And the second's. -/
theorem iblk1 (c : Dev nD) : iblk m c 1 t0_0 = V m c main_call0_v1 := by
  unfold iblk
  have hz' : (fun a => win0_1.index t0_0 a * main_call0_v1.ty.shape.size a) = fun _ => 0 :=
    funext fun a => by fin_cases a <;> decide
  exact Memref.read_access_unit_zero (Elt Ideal) main_call0_v1 hz' (fun a => by rw [congrFun hz' a]; simp) _

/-- And the third's. -/
theorem iblk2 (c : Dev nD) : iblk m c 2 t0_0 = V m c main_call0_v2 := by
  unfold iblk
  have hz' : (fun a => win0_2.index t0_0 a * main_call0_v2.ty.shape.size a) = fun _ => 0 :=
    funext fun a => by fin_cases a <;> decide
  exact Memref.read_access_unit_zero (Elt Ideal) main_call0_v2 hz' (fun a => by rw [congrFun hz' a]; simp) _

/-- In range, the rows of a picked array are the table's rows the index vector names. -/
theorem rows_takeRows (e : FVec Ideal S16384x512 .f32) (x : IVec S1000 32) (hx : InRange x) :
    rows (takeRows (F := Ideal) e x) = rowsOf e x :=
  funext fun s => funext fun k => takeRows_apply e x hx s k

/-- What the body leaves in the output's buffer at the one point: the loss, at the buffer's one index. -/
theorem out_apply (h : ArgsInRange m) (c : Dev nD) (i : S1x1.Idx) :
    out0_3 (iblk m c 0 t0_0) (iblk m c 1 t0_0) (iblk m c 2 t0_0) i = lossOf m c := by
  unfold out0_3
  rw [View.canon_unit_zero hz]
  simp only [View.ld_unit_zero (S := S1000x512) hz]
  rw [stored_apply, iblk0, iblk1, iblk2, V_rows0, V_rows1, V_rows2,
    rows_takeRows _ _ (h c).1, rows_takeRows _ _ (h c).2.1, rows_takeRows _ _ (h c).2.2]
  rfl

/-- The result array as the call leaves it. -/
abbrev resultArr (c : Dev nD) : Buf (Elt Ideal) ((c : Thread nD τ).loc main_call0_v3) :=
  out0_3 (iblk m c 0 t0_0) (iblk m c 1 t0_0) (iblk m c 2 t0_0)

/-- The one write-back writes the output's buffer over the whole result array. -/
theorem flushed_eq (c : Dev nD) (t : Fin cfg0.N) (_hf : (cfg0.win 3).flush t = true) :
    (dats m 0 c).flushed 3 t = ((cfg0.win 3).blk t).view.read (Elt Ideal) (resultArr m c) := by
  obtain rfl : t = t0_0 := fin_N0 t
  show (cfg0.win 3).cut (grid0.coords t0_0) ((dats m 0 c).after 3 t0_0) = _
  rw [after0_3]
  have hz' : (fun a => win0_3.index t0_0 a * main_call0_v3.ty.shape.size a) = fun _ => 0 :=
    funext fun a => by fin_cases a <;> decide
  exact (Memref.read_access_unit_zero (Elt Ideal) main_call0_v3 hz' (fun a => by rw [congrFun hz' a]; simp) (resultArr m c)).symm

/-- So the result array ends holding it: the one point's block covers the array. -/
theorem final3 (c : Dev nD) : (dats m 0 c).arrAt 3 cfg0.N = resultArr m c :=
  (dats m 0 c).arrAt_eq_of_cover 3 (resultArr m c) (flushed_eq m c) fun i =>
    ⟨t0_0, flush0_3 t0_0, by
      show i ∈ ((View.whole main_call0_v3).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 1 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 1 from by decide +kernel]; omega⟩

/-- The program's result: the host's reshape of the result array to a scalar, the loss. -/
theorem tail_eq (h : ArgsInRange m) (c : Dev nD) :
    Pipeline.afterTail₀ cfgs (dats m) 0 (V0 m) [hostOps1] c main_v0 = fun _ => lossOf m c := by
  unfold Pipeline.afterTail₀
  show StableHlo.after hostOps1 _ (Proc.devRef .tc main_v0) = _
  after_results
  funext i
  have hw : Pipeline.withArrays (cfgs 0).spec c (V0 m c) (fun w => (dats m 0 c).arrAt w (cfgs 0).N)
      (Proc.devRef .tc main_call0_v3) = resultArr m c :=
    (Pipeline.withArrays_arr spec0 launch0.win.arr_inj c _ _ 3).trans (final3 m c)
  show shapeCast S_ (Pipeline.withArrays (cfgs 0).spec c (V0 m c) (fun w => (dats m 0 c).arrAt w (cfgs 0).N)
      (Proc.devRef .tc main_call0_v3)) shapeCasts_S1x1_S_ i = lossOf m c
  unfold shapeCast
  rw [hw]
  exact out_apply m h c _

/-- THE KERNEL'S RUN, READ: with the index vectors in range every weakly fair execution ends with the result at the
    loss and the four arguments as launched. -/
theorem run (h : ArgsInRange m) :
    θ_run defs (onTc (τ := τ) (main (F := Ideal))) ⟨m, fun _ => 0, ρ⟩ (fun r => ∀ c : Dev nD,
      r.2.mem ((c.tc : Thread nD τ).loc main_v0) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hh c =>
    ⟨((hh c).2 main_v0 (Pipeline.mem_restRefs_of main_v0 (by decide) (by decide))).trans (tail_eq m h c),
      ((hh c).2 main_arg0 (Pipeline.mem_restRefs_of main_arg0 (by decide) (by decide))).trans (W_main_arg0 m (dats m) c),
      ((hh c).2 main_arg1 (Pipeline.mem_restRefs_of main_arg1 (by decide) (by decide))).trans (W_main_arg1 m (dats m) c),
      ((hh c).2 main_arg2 (Pipeline.mem_restRefs_of main_arg2 (by decide) (by decide))).trans (W_main_arg2 m (dats m) c),
      ((hh c).2 main_arg3 (Pipeline.mem_restRefs_of main_arg3 (by decide) (by decide))).trans (W_main_arg3 m (dats m) c)⟩)
    (run_main m ρ)

end Cert.KernelIdeal.Result

end
-- ==== Proof.RefLoss.lean ====
/-
  The reference, read: its result is the loss of the table and the three index vectors.

  The reference normalises every row of the table first (each entry over `max (‖row‖, ε)`), then picks, for each
  index vector, the rows the wrapped indices name. A picked row of the normalised table is the unit vector of the
  picked row of the table: the row gather reads entry `k` of the row the clamped start index names, and the
  normalisation of an entry looks only at the entry's own row. The rest is entry by entry what the specification
  says: products summed along the rows, divided by the word for one (which changes nothing), the logistic function
  written out as `1 / (1 + e^(-x))`, the violation clipped at zero, the sum over the positions divided by the word
  for 1000.
-/
import proofs.«430122_j18631568130669_2_alg».proof.Proof.Gen.ReferenceIdeal.Read
import proofs.«430122_j18631568130669_2_alg».proof.Proof.Spec
import proofs.«430122_j18631568130669_2_alg».proof.Proof.LibGatherRows
import Idealize.ShloMosaic.Lib.ValueIdx
import Idealize.ShloMosaic.Lib.ValueIdxRank1
import Idealize.ShloMosaic.Lib.IdealHost

set_option maxRecDepth 16384

noncomputable section

open scoped BigOperators

namespace Cert.ReferenceIdeal.Loss

open Cert.ReferenceIdeal Cert.ReferenceIdeal.Gen Cert.ReferenceIdeal.Read
open Idealize.ShloMosaic Idealize.ShloMosaic.ValueIdx
open Cert.Triplet Cert.GatherRows

/-- The table normalised row by row, at `(r, k)`: the entry over `max (‖row r‖, ε)`. -/
theorem unitTable_apply (e : Cert.Triplet.Table) (r : Fin 16384) (k : Fin 512) :
    val_main_v4 (F := Ideal) e (ix2 r k)
      = Ideal.div (e (ix2 r k)) (max (Ideal.sqrt (∑ k' : Fin 512, e (ix2 r k') * e (ix2 r k'))) (Ideal.ofBits .f32 0x2B8CBCCC#32)) := by
  rw [val_main_v4_apply, val_main_v3_apply, val_main_v2_apply, val_main_v0_apply, val_main_call0_v2_apply,
    val_main_call0_v1_apply, val_main_v1_apply]
  simp only [val_main_call0_v0_apply, val_main_call0_cst_apply, val_main_cst_apply, Ideal.hostDivf_def, Ideal.maximumf_def,
    Ideal.hostUnary_sqrt_def, Ideal.mulf_def, Ideal.ofBits_def, Ideal.ofBits_zero_f32, zero_add]
  have hidx : ∀ k' : Fin 512, idx_main_call0_v1 (idx_main_call0_v2 (idx_main_v3 (ix2 r k))) k' = ix2 r k' := fun k' =>
    funext fun a => Fin.ext (by
      match a with
      | ⟨0, _⟩ => rfl
      | ⟨1, _⟩ => rfl)
  simp only [hidx]

/-! ## The three start columns and the rows they pick -/

/-- The reference's start column for the first index vector, at position `s`: the wrap of the `s`-th word. -/
theorem startCol_i (x : Words) (s : Fin 1000) (u : Fin 1) :
    val_main_v10 (F := Ideal) x (ix2 s u) = wrapWord (x (ix1 s)) := by
  rw [val_main_v10_apply, val_main_v9_apply, val_main_v6_apply, val_main_v8_apply, val_main_v5_apply, val_main_v7_apply, val_main_c_apply, val_main_c_0_apply]
  have hidx : idx_main_v10 (ix2 s u) = ix1 s := funext fun a => Fin.ext (by
    match a with
    | ⟨0, _⟩ => rfl)
  rw [hidx]
  rfl

/-- The reference's start column for the second index vector, at position `s`: the wrap of the `s`-th word. -/
theorem startCol_j (x : Words) (s : Fin 1000) (u : Fin 1) :
    val_main_v17 (F := Ideal) x (ix2 s u) = wrapWord (x (ix1 s)) := by
  rw [val_main_v17_apply, val_main_v16_apply, val_main_v13_apply, val_main_v15_apply, val_main_v12_apply, val_main_v14_apply, val_main_c_1_apply, val_main_c_2_apply]
  have hidx : idx_main_v17 (ix2 s u) = ix1 s := funext fun a => Fin.ext (by
    match a with
    | ⟨0, _⟩ => rfl)
  rw [hidx]
  rfl

/-- The reference's start column for the third index vector, at position `s`: the wrap of the `s`-th word. -/
theorem startCol_k (x : Words) (s : Fin 1000) (u : Fin 1) :
    val_main_v24 (F := Ideal) x (ix2 s u) = wrapWord (x (ix1 s)) := by
  rw [val_main_v24_apply, val_main_v23_apply, val_main_v20_apply, val_main_v22_apply, val_main_v19_apply, val_main_v21_apply, val_main_c_3_apply, val_main_c_4_apply]
  have hidx : idx_main_v24 (ix2 s u) = ix1 s := funext fun a => Fin.ext (by
    match a with
    | ⟨0, _⟩ => rfl)
  rw [hidx]
  rfl

/-- The rows the first index vector picks out of the normalised table, at any index: the unit vector entry. -/
theorem picked_i (e : Cert.Triplet.Table) (x : Words) (j : S1000x512.Idx) :
    val_main_v11 (F := Ideal) e x j = unitRow (rowsOf e x) ⟨(j 0).val, idx2_lt0 j⟩ ⟨(j 1).val, idx2_lt1 j⟩ := by
  obtain ⟨s, k, rfl⟩ : ∃ (s : Fin 1000) (k : Fin 512), j = ix2 s k := ⟨j 0, j 1, eq_ix2 j⟩
  unfold val_main_v11
  show Host.gather (rowDims 16384 512 1000 gather_S16384x512_S1000x1_S1000x512_1_0_n_n_0_1_1512_wf)
    (val_main_v4 (F := Ideal) e) (val_main_v10 (F := Ideal) x) (ix2 s k) = _
  rw [gather_rows_apply (by decide), unitTable_apply]
  have hr : rowAt (N := 16384) (by decide) (val_main_v10 (F := Ideal) x) s = rowOf x s := Fin.ext (by
    show min (val_main_v10 (F := Ideal) x (ix2 s (0 : Fin 1))).toInt.toNat (16384 - 1) = min (wrapWord (x (ix1 s))).toInt.toNat 16383
    rw [startCol_i])
  rw [hr]
  rfl

/-- The rows the second index vector picks out of the normalised table, at any index: the unit vector entry. -/
theorem picked_j (e : Cert.Triplet.Table) (x : Words) (j : S1000x512.Idx) :
    val_main_v18 (F := Ideal) e x j = unitRow (rowsOf e x) ⟨(j 0).val, idx2_lt0 j⟩ ⟨(j 1).val, idx2_lt1 j⟩ := by
  obtain ⟨s, k, rfl⟩ : ∃ (s : Fin 1000) (k : Fin 512), j = ix2 s k := ⟨j 0, j 1, eq_ix2 j⟩
  unfold val_main_v18
  show Host.gather (rowDims 16384 512 1000 gather_S16384x512_S1000x1_S1000x512_1_0_n_n_0_1_1512_wf)
    (val_main_v4 (F := Ideal) e) (val_main_v17 (F := Ideal) x) (ix2 s k) = _
  rw [gather_rows_apply (by decide), unitTable_apply]
  have hr : rowAt (N := 16384) (by decide) (val_main_v17 (F := Ideal) x) s = rowOf x s := Fin.ext (by
    show min (val_main_v17 (F := Ideal) x (ix2 s (0 : Fin 1))).toInt.toNat (16384 - 1) = min (wrapWord (x (ix1 s))).toInt.toNat 16383
    rw [startCol_j])
  rw [hr]
  rfl

/-- The rows the third index vector picks out of the normalised table, at any index: the unit vector entry. -/
theorem picked_k (e : Cert.Triplet.Table) (x : Words) (j : S1000x512.Idx) :
    val_main_v25 (F := Ideal) e x j = unitRow (rowsOf e x) ⟨(j 0).val, idx2_lt0 j⟩ ⟨(j 1).val, idx2_lt1 j⟩ := by
  obtain ⟨s, k, rfl⟩ : ∃ (s : Fin 1000) (k : Fin 512), j = ix2 s k := ⟨j 0, j 1, eq_ix2 j⟩
  unfold val_main_v25
  show Host.gather (rowDims 16384 512 1000 gather_S16384x512_S1000x1_S1000x512_1_0_n_n_0_1_1512_wf)
    (val_main_v4 (F := Ideal) e) (val_main_v24 (F := Ideal) x) (ix2 s k) = _
  rw [gather_rows_apply (by decide), unitTable_apply]
  have hr : rowAt (N := 16384) (by decide) (val_main_v24 (F := Ideal) x) s = rowOf x s := Fin.ext (by
    show min (val_main_v24 (F := Ideal) x (ix2 s (0 : Fin 1))).toInt.toNat (16384 - 1) = min (wrapWord (x (ix1 s))).toInt.toNat 16383
    rw [startCol_k])
  rw [hr]
  rfl

/-! ## The three probabilities -/

/-- The probability for the pair ij, at any position: the logistic function of the two picked rows' similarity. -/
theorem prob_ij (e : Cert.Triplet.Table) (xi xj : Words) (i : S1000.Idx) :
    val_main_v35 (F := Ideal) e xi xj i
      = Ideal.logistic (cosine (rowsOf e xi) (rowsOf e xj) ⟨(i 0).val, (i 0).isLt⟩) := by
  rw [val_main_v35_apply, val_main_v34_apply, val_main_v33_apply, val_main_v32_apply, val_main_v31_apply, val_main_v30_apply, val_main_v29_apply, val_main_v28_apply,
    val_main_v27_apply]
  simp only [val_main_cst_8_apply, val_main_cst_7_apply, val_main_cst_6_apply, val_main_cst_5_apply, val_main_v26_apply, picked_i, picked_j,
    Ideal.hostDivf_def, Ideal.addf_def, Ideal.hostUnary_exp_def, Ideal.hostNegf_def, Ideal.negf_def, Ideal.mulf_def,
    Ideal.ofBits_def, Ideal.ofBits_one_f32, Ideal.ofBits_zero_f32, zero_add]
  rw [logistic_spelt]
  rfl

/-- The probability for the pair jk, at any position: the logistic function of the two picked rows' similarity. -/
theorem prob_jk (e : Cert.Triplet.Table) (xj xk : Words) (i : S1000.Idx) :
    val_main_v45 (F := Ideal) e xj xk i
      = Ideal.logistic (cosine (rowsOf e xj) (rowsOf e xk) ⟨(i 0).val, (i 0).isLt⟩) := by
  rw [val_main_v45_apply, val_main_v44_apply, val_main_v43_apply, val_main_v42_apply, val_main_v41_apply, val_main_v40_apply, val_main_v39_apply, val_main_v38_apply,
    val_main_v37_apply]
  simp only [val_main_cst_12_apply, val_main_cst_11_apply, val_main_cst_10_apply, val_main_cst_9_apply, val_main_v36_apply, picked_j, picked_k,
    Ideal.hostDivf_def, Ideal.addf_def, Ideal.hostUnary_exp_def, Ideal.hostNegf_def, Ideal.negf_def, Ideal.mulf_def,
    Ideal.ofBits_def, Ideal.ofBits_one_f32, Ideal.ofBits_zero_f32, zero_add]
  rw [logistic_spelt]
  rfl

/-- The probability for the pair ik, at any position: the logistic function of the two picked rows' similarity. -/
theorem prob_ik (e : Cert.Triplet.Table) (xi xk : Words) (i : S1000.Idx) :
    val_main_v55 (F := Ideal) e xi xk i
      = Ideal.logistic (cosine (rowsOf e xi) (rowsOf e xk) ⟨(i 0).val, (i 0).isLt⟩) := by
  rw [val_main_v55_apply, val_main_v54_apply, val_main_v53_apply, val_main_v52_apply, val_main_v51_apply, val_main_v50_apply, val_main_v49_apply, val_main_v48_apply,
    val_main_v47_apply]
  simp only [val_main_cst_16_apply, val_main_cst_15_apply, val_main_cst_14_apply, val_main_cst_13_apply, val_main_v46_apply, picked_i, picked_k,
    Ideal.hostDivf_def, Ideal.addf_def, Ideal.hostUnary_exp_def, Ideal.hostNegf_def, Ideal.negf_def, Ideal.mulf_def,
    Ideal.ofBits_def, Ideal.ofBits_one_f32, Ideal.ofBits_zero_f32, zero_add]
  rw [logistic_spelt]
  rfl

/-! ## The result -/

/-- The reference's last stage, at its one index, is the loss. -/
theorem stage_eq_loss (e : Cert.Triplet.Table) (xi xj xk : Words) (i : S_.Idx) :
    val_main_v60 (F := Ideal) e xi xj xk i = loss e xi xj xk := by
  rw [val_main_v60_apply, val_main_v59_apply]
  simp only [val_main_cst_18_apply, val_main_cst_17_apply, val_main_v58_apply, val_main_v57_apply, val_main_v56_apply,
    val_main_call1_v0_apply, val_main_call1_cst_apply, prob_ij, prob_jk, prob_ik,
    Ideal.hostDivf_def, Ideal.maximumf_def, Ideal.subf_def, Ideal.mulf_def, Ideal.ofBits_def, Ideal.ofBits_zero_f32, zero_add]
  unfold loss meanViolation
  refine congrArg (fun z => Ideal.div z (Ideal.ofBits .f32 0x447A0000#32)) ?_
  rw [← Equiv.sum_comp (idxEquiv1 (n := 1000)).symm]
  rfl

/-- THE REFERENCE'S RESULT is the loss of the launch contents of its four arguments. -/
theorem result_eq (m : (ℓ : Loc nD τ sig) → Buf (Elt Ideal) ℓ) (c : Dev nD) :
    Cert.ReferenceIdeal.Value.res_main_v60 (F := Ideal) m c
      = fun _ => loss (m ((c.tc : Thread nD τ).loc main_arg0)) (m ((c.tc : Thread nD τ).loc main_arg1))
          (m ((c.tc : Thread nD τ).loc main_arg2)) (m ((c.tc : Thread nD τ).loc main_arg3)) := by
  rw [val_main_v60_eq]
  funext i
  exact stage_eq_loss _ _ _ _ i

end Cert.ReferenceIdeal.Loss

end
-- ==== Proof.lean ====
/- Sampled-triplet transitivity loss: the Pallas kernel against its jnp reference, over the extended reals.

   Both programs compute, from a table of 16384 rows of 512 numbers and three vectors of 1000 row indices, the mean
   over the 1000 positions of `max (σ(c_ij) · σ(c_jk) − σ(c_ik), 0)`, where `c_ab` is the sum of the products of
   the unit vectors `row / max (‖row‖, ε)` of the rows the two index vectors name at that position and `σ` is the
   logistic function (Proof/Spec.lean: `loss`). They differ in the order of two steps and in three spellings:
     * the reference normalises every row of the table and then picks rows; the kernel picks rows and normalises
       the picked ones. A row's unit vector depends on that row alone, and a row gather reads entry `k` of the row
       its start index names (Proof/LibGatherRows.lean), so the two orders give the same entries;
     * the kernel multiplies each similarity by the word for one where the reference divides by it, and uses the
       logistic operation where the reference writes `1 / (1 + e^(-x))`: `x · 1 = x / 1 = x` on every extended
       real, and the written-out form is the logistic function by definition;
     * the kernel's row picking replaces by a fill word the rows of positions whose wrapped index falls outside the
       table, where the reference's gather clamps the index into the table. The precondition keeps every index
       word in `[-16384, 16384)`, so every wrapped index is a row number, the kernel's in-table test holds at every
       position, and no row is filled (Proof/IndexRange.lean, Proof/KernelPick.lean).
   The kernel's frames are the generated ones; its value is read off the generated frame run: one grid point whose
   blocks are the whole arrays, one write-back over the whole result array, a host reshape to a scalar
   (Proof/KernelValue.lean, over the body's arithmetic in Proof/KernelLoss.lean). The reference's frame and value
   come from its generated run, read one operation at a time (Proof/RefLoss.lean). No finiteness is used: every
   law above holds at the infinities too. -/
import proofs.«430122_j18631568130669_2_alg».proof.Defs
import proofs.«430122_j18631568130669_2_alg».proof.Proof.Gen.Kernel
import proofs.«430122_j18631568130669_2_alg».proof.Proof.Gen.Kernel.Skeleton
import proofs.«430122_j18631568130669_2_alg».proof.Proof.Gen.Kernel.Launch
import proofs.«430122_j18631568130669_2_alg».proof.Proof.Gen.Kernel.Points
import proofs.«430122_j18631568130669_2_alg».proof.Proof.Gen.Kernel.Frame
import proofs.«430122_j18631568130669_2_alg».proof.Proof.Gen.KernelIdeal
import proofs.«430122_j18631568130669_2_alg».proof.Proof.Gen.KernelIdeal.Skeleton
import proofs.«430122_j18631568130669_2_alg».proof.Proof.Gen.KernelIdeal.Launch
import proofs.«430122_j18631568130669_2_alg».proof.Proof.Gen.KernelIdeal.Points
import proofs.«430122_j18631568130669_2_alg».proof.Proof.Gen.KernelIdeal.Frame
import proofs.«430122_j18631568130669_2_alg».proof.Proof.Gen.ReferenceIdeal
import proofs.«430122_j18631568130669_2_alg».proof.Proof.Gen.ReferenceIdeal.Run
import proofs.«430122_j18631568130669_2_alg».proof.Proof.Gen.ReferenceIdeal.Read
import proofs.«430122_j18631568130669_2_alg».proof.Proof.Gen.Pre_finite_inputs
import proofs.«430122_j18631568130669_2_alg».proof.Proof.KernelValue
import proofs.«430122_j18631568130669_2_alg».proof.Proof.RefLoss
import Idealize.ShloMosaic.Adequacy
import Idealize.ShloMosaic.Init

noncomputable section

namespace Cert.Proof

open Idealize.ShloMosaic Idealize.SL.Sem

/-- The precondition puts the three index vectors of the launch memory in range, on every device. -/
theorem argsInRange_of_pre [Cert.Pre_finite_inputs.Facts]
    (m : (ℓ : Loc Cert.KernelIdeal.nD Cert.KernelIdeal.τ Cert.KernelIdeal.sig) → Buf (Elt Ideal) ℓ)
    (h : Cert.Pre_KernelIdeal m) : Cert.KernelIdeal.Result.ArgsInRange m :=
  fun c => Cert.Triplet.inRange_of_pre _ _ _ _ (h c)

/-- The kernel's and the reference's frames: the generated frame run, and the reference's generated run with its
    result dropped. -/
theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the loss of those arguments. -/
theorem algebraic : Cert.algebraic_KernelIdeal_ReferenceIdeal := by
  intro m ρ m' ρ' hpre hagree
  refine ⟨fun c => fun _ => Cert.KernelIdeal.Result.lossOf m c,
    Cert.KernelIdeal.Result.run m ρ (argsInRange_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Loss.result_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
